-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S1024x64 : Shape := ⟨2, ![1024, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32768x64 .f32) (main_arg1 : FVec F S1024x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S32768x64 : Shape := ⟨2, ![32768, 64]⟩
abbrev S1024x64 : Shape := ⟨2, ![1024, 64]⟩
abbrev S32768x1024 : Shape := ⟨2, ![32768, 1024]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S2048x66 : Shape := ⟨2, ![2048, 66]⟩
abbrev S1024x66 : Shape := ⟨2, ![1024, 66]⟩

abbrev nBuf : Space → Nat
  | .hbm => 3
  | .vmem => 5
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x1024, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S2048x1024, .f32⟩
  | .local _ .vmem, ⟨4, _⟩ => ⟨S2048x1024, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  reduces_S2048x64_S2048 : S2048x64.Reduces [1] S2048
  shapeCasts_S2048_S2048x1 : S2048.ShapeCasts S2048x1
  reduces_S1024x64_S1024 : S1024x64.Reduces [1] S1024
  shapeCasts_S1024_S1024x1 : S1024.ShapeCasts S1024x1
  concatenates_S2048x64_S2048x1_S2048x1_S2048x66_d1 : Shape.Concatenates [S2048x64, S2048x1, S2048x1] S2048x66 1
  concatenates_S1024x64_S1024x1_S1024x1_S1024x66_d1 : Shape.Concatenates [S1024x64, S1024x1, S1024x1] S1024x66 1
  inb_S2048x1024_S2048x1024_0_0 : ∀ a, (![0, 0] : Fin 2 → Nat) a + S2048x1024.size a ≤ S2048x1024.size a
  h_S2048x1024 : 0 < S2048x1024.numel
  dot_S2048x66_S1024x66_S2048x1024_1_1_0_0_n_n_wf : DotDims.WF S2048x66 S1024x66 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S32768x64.size a
  hwx0_0 : ∀ i : grid0.Coords, EltTy.bits .f32 = 32 ∨ (Rect.block (s := S32768x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

def dot_S2048x66_S1024x66_S2048x1024_1_1_0_0_n_n : DotDims S2048x66 S1024x66 S2048x1024 where
  lhsContracting := [1]
  rhsContracting := [1]
  lhsNonContracting := [0]
  rhsNonContracting := [0]
  lhsBatch := []
  rhsBatch := []
  wf := dot_S2048x66_S1024x66_S2048x1024_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S64x1024 : Shape := ⟨2, ![64, 1024]⟩
abbrev S32768x1024 : Shape := ⟨2, ![32768, 1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S1024x64_S1024_d1 : S1024x64.ReducesTo [1] S1024
  transposes_S1024x64_S64x1024_1_0 : S1024x64.Transposes [1, 0] S64x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x64_S64x1024_S32768x1024_1_0_0_1_n_n_wf : DotDims.WF S32768x64 S64x1024 S32768x1024 [1] [0] [0] [1] [] []

variable [Facts₀]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf

class Facts : Prop extends Facts₀ where

variable [Facts]
-- ==== Proof.Finite.lean ====
/-
  From the precondition to real entries.

  The precondition says of each argument array that every entry's absolute value is below `+∞`, the two arrays' tests
  joined by `and`. On the extended reals `max x (-x) < ⊤` rules out both infinities, so every entry of both arrays is a
  real number.
-/
import proofs.«169494_g72164040507785_cont_sun_m_596_7_alg».proof.Pre_finite_inputs
import Idealize.ShloMosaic.PureOps.Ideal
import Idealize.ShloMosaic.Lib.ReduceAll
import Idealize.ShloMosaic.Lib.ValueIdx

noncomputable section

namespace Cert.VqLogits

open Idealize.ShloMosaic

/-- An extended real whose absolute value compares below the pattern of `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

variable [Cert.Pre_finite_inputs.Facts]

/-- Under the precondition every entry of the keys and of the code vectors is a real number. -/
theorem real_of_pre (x : FVec Ideal Cert.Pre_finite_inputs.S32768x64 .f32) (e : FVec Ideal Cert.Pre_finite_inputs.S1024x64 .f32)
    (h : Cert.Pre_finite_inputs.fn (F := Ideal) x e = fun _ => 1#1) :
    (∀ i, ∃ r : ℝ, x i = (r : EReal)) ∧ (∀ i, ∃ r : ℝ, e i = (r : EReal)) := by
  have h0 := congrFun h ValueIdx.ix0
  dsimp only [Cert.Pre_finite_inputs.fn] at h0
  obtain ⟨ha, hb⟩ := IntOp.andi_eq_one.1 h0
  haveI : Subsingleton Cert.Pre_finite_inputs.S_.Idx := ⟨fun a b => funext fun d => d.elim0⟩
  refine ⟨fun i => ?_, fun i => ?_⟩
  · exact real_of_abs_lt_inf (x i) (Host.reduce_andi_all _ _ _ _ _ ha i)
  · exact real_of_abs_lt_inf (e i) (Host.reduce_andi_all _ _ _ _ _ hb i)

end Cert.VqLogits

end
-- ==== Proof.Spec.lean ====
/-
  The codebook logits as a function of the two argument arrays, entry by entry, and the law that joins the two ways of
  computing them.

  For keys `x : [32768, 64]` and code vectors `e : [1024, 64]` the logit of key `n` against code `k` is minus the squared
  distance, `-‖x n - e k‖²`. One program expands the square and negates the whole,
  `-((‖x n‖² - 2 · ⟨x n, e k⟩) + ‖e k‖²)`; the other folds the two norms into ONE inner product of length 66: the key
  row is extended to `(x n + x n, -‖x n‖², 1)`, the code row to `(e k, 1, -‖e k‖²)`, and their inner product is
  `∑ c, (x n c + x n c) · e k c  +  (0 - ‖x n‖²) · 1  +  1 · (0 - ‖e k‖²)`.
  On real numbers the two agree by distributivity and the sign rules; on the extended reals those laws fail at the
  infinities, so the law is stated for real entries, which is what a finite input provides.
-/
import Idealize.ShloMosaic.PureOps.Ideal
import Idealize.ShloMosaic.PureOps.Ideal.Laws
import Idealize.ShloMosaic.Lib.ValueIdx

noncomputable section

open scoped BigOperators

namespace Cert.VqLogits

open Idealize.ShloMosaic Idealize.ShloMosaic.ValueIdx

/-! ## The three float constants the programs spell -/

/-- The pattern of `1.0` denotes the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The pattern of `2.0` denotes the extended real two. -/
theorem ofBits_two : Ideal.ofBits .f32 0x40000000#32 = ((2 : ℝ) : EReal) := by
  simp [Ideal.ofBits, Ideal.ieee, -EReal.coe_mul]; norm_num

/-! ## The two formulas, over extended reals -/

/-- The folded form: the inner product of the extended key row with the extended code row, its 66 terms grouped as the 64
    products of doubled key entries with code entries, then the key's norm term, then the code's norm term. -/
def folded (x : (⟨2, ![32768, 64]⟩ : Shape).Idx → EReal) (e : (⟨2, ![1024, 64]⟩ : Shape).Idx → EReal)
    (n : Fin 32768) (k : Fin 1024) : EReal :=
  (∑ c : Fin 64, (x (ix2 n c) + x (ix2 n c)) * e (ix2 k c))
    + (0 - ∑ c : Fin 64, x (ix2 n c) * x (ix2 n c)) * 1
    + 1 * (0 - ∑ c : Fin 64, e (ix2 k c) * e (ix2 k c))

/-- The expanded form: minus (the key's squared norm, less twice the inner product, plus the code's squared norm), each
    norm a sum started from zero. -/
def expanded (x : (⟨2, ![32768, 64]⟩ : Shape).Idx → EReal) (e : (⟨2, ![1024, 64]⟩ : Shape).Idx → EReal)
    (n : Fin 32768) (k : Fin 1024) : EReal :=
  -(((0 + ∑ c : Fin 64, x (ix2 n c) * x (ix2 n c)) - ((2 : ℝ) : EReal) * ∑ c : Fin 64, x (ix2 n c) * e (ix2 k c))
      + (0 + ∑ c : Fin 64, e (ix2 k c) * e (ix2 k c)))

/-- The logits array in the folded form, index by index. -/
def logits (x : (⟨2, ![32768, 64]⟩ : Shape).Idx → EReal) (e : (⟨2, ![1024, 64]⟩ : Shape).Idx → EReal) :
    (⟨2, ![32768, 1024]⟩ : Shape).Idx → EReal :=
  fun i => folded x e (i 0) (i 1)

/-! ## The law, on real numbers -/

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real vectors `u`, `v` of any length: `∑ (u + u)·v + (0 - ‖u‖²)·1 + 1·(0 - ‖v‖²) = -((0 + ‖u‖² - 2·⟨u, v⟩) + (0 + ‖v‖²))`,
    read in the extended reals. -/
theorem folded_eq_expanded_real {ι : Type} [Fintype ι] (u v : ι → ℝ) :
    (∑ c, ((u c : EReal) + (u c : EReal)) * (v c : EReal)) + (0 - ∑ c, (u c : EReal) * (u c : EReal)) * 1
        + 1 * (0 - ∑ c, (v c : EReal) * (v c : EReal))
      = -(((0 + ∑ c, (u c : EReal) * (u c : EReal)) - ((2 : ℝ) : EReal) * ∑ c, (u c : EReal) * (v c : EReal))
          + (0 + ∑ c, (v c : EReal) * (v c : EReal))) := by
  have h0 : (0 : EReal) = ((0 : ℝ) : EReal) := rfl
  have h1 : (1 : EReal) = ((1 : ℝ) : EReal) := rfl
  simp only [h0, h1, ← EReal.coe_add, ← EReal.coe_mul, ← coe_sum, ← EReal.coe_sub, ← EReal.coe_neg]
  refine congrArg _ ?_
  have hd : ∑ c, (u c + u c) * v c = 2 * ∑ c, u c * v c := by
    rw [Finset.mul_sum]; exact Finset.sum_congr rfl fun c _ => by ring
  rw [hd]; ring

/-- For arrays with real entries the folded and the expanded logits are equal. -/
theorem folded_eq_expanded (x : (⟨2, ![32768, 64]⟩ : Shape).Idx → EReal) (e : (⟨2, ![1024, 64]⟩ : Shape).Idx → EReal)
    (hx : ∀ i, ∃ r : ℝ, x i = (r : EReal)) (he : ∀ i, ∃ r : ℝ, e i = (r : EReal)) (n : Fin 32768) (k : Fin 1024) :
    folded x e n k = expanded x e n k := by
  choose xr hxr using hx
  choose er her using he
  unfold folded expanded
  simp only [hxr, her]
  exact folded_eq_expanded_real (fun c => xr (ix2 n c)) (fun c => er (ix2 k c))

end Cert.VqLogits

end
-- ==== Proof.RefValue.lean ====
/-
  The reference's result at an entry.

  The reference computes the keys' squared norms (a row sum started from zero, kept as a column and spread along the
  rows), the code vectors' squared norms (spread along the columns), the inner products as one matrix product against the
  transposed code table, doubles them, and negates `(‖x n‖² - 2 · ⟨x n, e k⟩) + ‖e k‖²`. Read one operation at a time at
  entry `(n, k)`, every stage's index goes back to row `n` of the keys and row `k` of the code table: the expanded form.
-/
import proofs.«169494_g72164040507785_cont_sun_m_596_7_alg».proof.Proof.Gen.ReferenceIdeal.Read
import proofs.«169494_g72164040507785_cont_sun_m_596_7_alg».proof.Proof.Spec

noncomputable section

open scoped BigOperators

namespace Cert.VqLogits

open Cert.ReferenceIdeal Cert.ReferenceIdeal.Read Idealize.ShloMosaic Idealize.ShloMosaic.ValueIdx

/-- The reference's last stage at entry `(n, k)` is the expanded logit. -/
theorem reference_apply (x : FVec Ideal S32768x64 .f32) (e : FVec Ideal S1024x64 .f32) (n : Fin 32768) (k : Fin 1024) :
    val_main_v14 (F := Ideal) x e (ix2 n k) = expanded x e n k := by
  -- where each stage reads its operand: the key's row, the code's row
  have hkey : ∀ c : Fin 64, idx_main_v1 (idx_main_v2 (idx_main_v9 (ix2 n k))) c = ix2 n c := fun c =>
    funext fun a => Fin.ext (by match a with | ⟨0, _⟩ => rfl | ⟨1, _⟩ => rfl)
  have hcode : ∀ c : Fin 64, idx_main_v4 (idx_main_v11 (idx_main_v12 (ix2 n k))) c = ix2 k c := fun c =>
    funext fun a => Fin.ext (by match a with | ⟨0, _⟩ => rfl | ⟨1, _⟩ => rfl)
  have hl : ∀ c : Fin 64, lidx_main_v6 (ix2 n k) c = ix2 n c := fun c =>
    funext fun a => Fin.ext (by match a with | ⟨0, _⟩ => rfl | ⟨1, _⟩ => rfl)
  have hr : ∀ c : Fin 64, idx_main_v5 (ridx_main_v6 (ix2 n k) c) = ix2 k c := fun c =>
    funext fun a => Fin.ext (by match a with | ⟨0, _⟩ => rfl | ⟨1, _⟩ => rfl)
  rw [val_main_v14_apply, val_main_v13_apply, val_main_v10_apply, val_main_v9_apply, val_main_v2_apply, val_main_v1_apply,
    val_main_v8_apply, val_main_v7_apply, val_main_v6_apply, val_main_v12_apply, val_main_v11_apply, val_main_v4_apply]
  simp only [hkey, hcode, hl, hr, val_main_v0_apply, val_main_v3_apply, val_main_v5_apply, val_main_cst_apply,
    val_main_cst_0_apply, val_main_cst_1_apply, Ideal.mulf_def, Ideal.addf_def, Ideal.subf_def, Ideal.hostNegf_def,
    Ideal.negf_def, Ideal.ofBits_def, Ideal.ofBits_zero_f32, ofBits_two]
  rfl

/-- The reference's last stage is the expanded logits array. -/
theorem reference_eq (x : FVec Ideal S32768x64 .f32) (e : FVec Ideal S1024x64 .f32) :
    val_main_v14 (F := Ideal) x e = fun i => expanded x e (i 0) (i 1) := by
  funext i
  obtain ⟨n, k, rfl⟩ : ∃ (n : Fin 32768) (k : Fin 1024), i = ix2 n k := ⟨i 0, i 1, eq_ix2 i⟩
  exact reference_apply x e n k

end Cert.VqLogits

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.LibConcatCols.lean ====
/-
  A concatenation of three matrices side by side (along axis 1), read at an entry.

  `jnp.concatenate([x₁, x₂, x₃], axis=1)` of an `[a, b₁]`, an `[a, b₂]` and an `[a, b₃]` matrix is the `[a, b]` matrix
  (`b = b₁ + b₂ + b₃`) whose row `p` is the three rows laid end to end: column `j` reads `x₁` at `j` when `j < b₁`, `x₂` at
  `j - b₁` when `b₁ ≤ j < b₁ + b₂`, and `x₃` at `j - b₁ - b₂` from there on. One lemma per piece, the caller naming the column
  inside the piece.
-/
import Idealize.ShloMosaic.Lib.Pipeline.Value
import Idealize.ShloMosaic.Lib.ValueIdx

namespace Cert.LibConcatCols

open Idealize.ShloMosaic Idealize.ShloMosaic.ValueIdx

variable {α : Type}

/-- In the first piece's span the concatenation is the first piece. -/
theorem concat3_cols_apply_first {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₁) (hj : c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₁ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 0
    (Nat.succ_pos 2) ⟨2, ![a, b₁]⟩ x₁ rfl rfl 0 rfl (ix2 p c) ?_ ?_
  · intro d hd
    match d with
    | ⟨0, _⟩ => rfl
    | ⟨1, _⟩ => exact absurd rfl hd
  · show 0 + c.val = j.val
    omega

/-- In the second piece's span the concatenation is the second piece, `b₁` columns back. -/
theorem concat3_cols_apply_second {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₂) (hj : b₁ + c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₂ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 1
    (Nat.succ_lt_succ (Nat.succ_pos 1)) ⟨2, ![a, b₂]⟩ x₂ rfl rfl b₁ ?_ (ix2 p c) ?_ ?_
  · show ([b₁] : List ℕ).sum = b₁
    simp
  · intro d hd
    match d with
    | ⟨0, _⟩ => rfl
    | ⟨1, _⟩ => exact absurd rfl hd
  · show b₁ + c.val = j.val
    omega

/-- In the third piece's span the concatenation is the third piece, `b₁ + b₂` columns back. -/
theorem concat3_cols_apply_third {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₃) (hj : b₁ + b₂ + c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₃ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 2
    (Nat.lt_succ_self 2) ⟨2, ![a, b₃]⟩ x₃ rfl rfl (b₁ + b₂) ?_ (ix2 p c) ?_ ?_
  · show ([b₁, b₂] : List ℕ).sum = b₁ + b₂
    simp
  · intro d hd
    match d with
    | ⟨0, _⟩ => rfl
    | ⟨1, _⟩ => exact absurd rfl hd
  · show b₁ + b₂ + c.val = j.val
    omega

end Cert.LibConcatCols
-- ==== Proof.Payload.lean ====
/-
  One block's payload at an entry.

  The body extends the key block `v0 : [2048, 64]` to `[2048, 66]` by two columns, `0 - (row's squared norm)` and `1`, and
  the code block `v1 : [1024, 64]` to `[1024, 66]` by the columns `1` and `0 - (row's squared norm)`, doubling the key
  entries, and multiplies the first by the transpose of the second into a zero accumulator. Entry `(p, q)` of the product
  is the inner product of row `p` with row `q`, a sum of 66 terms: split off the last two and each group is read through
  the concatenation, piece by piece — the folded form of the logit.
-/
import proofs.«169494_g72164040507785_cont_sun_m_596_7_alg».proof.Proof.Gen.KernelIdeal.Skeleton
import proofs.«169494_g72164040507785_cont_sun_m_596_7_alg».proof.Proof.Spec
import proofs.«169494_g72164040507785_cont_sun_m_596_7_alg».proof.Proof.LibDotNT
import proofs.«169494_g72164040507785_cont_sun_m_596_7_alg».proof.Proof.LibKeepdims
import proofs.«169494_g72164040507785_cont_sun_m_596_7_alg».proof.Proof.LibConcatCols
import Idealize.ShloMosaic.Lib.ValueIdx

noncomputable section

open scoped BigOperators

namespace Cert.VqLogits

open Cert.KernelIdeal Cert.KernelIdeal.Gen Idealize.ShloMosaic Idealize.ShloMosaic.ValueIdx

/-- The column `0 - ‖row‖²` that keeps its axis, at row `p`: zero less the sum of the row's squares. -/
theorem neg_sqnorm_col_apply {a b : ℕ} (v : FVec Ideal ⟨2, ![a, b]⟩ .f32)
    (hred : (⟨2, ![a, b]⟩ : Shape).Reduces [1] ⟨1, ![a]⟩) (hcast : (⟨1, ![a]⟩ : Shape).ShapeCasts ⟨2, ![a, 1]⟩) (p : Fin a) :
    subf (F := Ideal) (broadcast ⟨2, ![a, 1]⟩ (Scalar.ofBits (F := Ideal) .f32 0x00000000#32))
        (shapeCast ⟨2, ![a, 1]⟩ (multiReduction (F := Ideal) .add [1] ⟨1, ![a]⟩ (mulf (F := Ideal) v v) 0x00000000#32 hred (.inl rfl) rfl) hcast)
        (ix2 p (0 : Fin 1))
      = 0 - ∑ c : Fin b, v (ix2 p c) * v (ix2 p c) := by
  show (Ideal.ofBits .f32 0x00000000#32 : EReal) - _ = _
  refine congrArg₂ (· - ·) Ideal.ofBits_zero_f32 ?_
  exact (shapeCast_a_a1_apply _ hcast p 0).trans (multiReduction_add_cols_apply (mulf (F := Ideal) v v) hred _ _ p)

/-- The column of ones, at any row. -/
theorem one_col_apply {a : ℕ} (p : Fin a) :
    broadcast (⟨2, ![a, 1]⟩ : Shape) (Scalar.ofBits (F := Ideal) .f32 0x3F800000#32) (ix2 p (0 : Fin 1)) = (1 : EReal) :=
  ofBits_one

/-- The body's payload at entry `(p, q)` of the block is the folded logit of key row `p` against code row `q`. -/
theorem payload_apply (v0 : Vec Ideal S2048x64 .f32) (v1 : Vec Ideal S1024x64 .f32) (p : Fin 2048) (q : Fin 1024) :
    k0_pay1 (F := Ideal) v0 v1 (ix2 p q)
      = (∑ c : Fin 64, (v0 (ix2 p c) + v0 (ix2 p c)) * v1 (ix2 q c))
          + (0 - ∑ c : Fin 64, v0 (ix2 p c) * v0 (ix2 p c)) * 1
          + 1 * (0 - ∑ c : Fin 64, v1 (ix2 q c) * v1 (ix2 q c)) := by
  unfold k0_pay1
  dsimp only
  refine (LibDotNT.matmul_zero_apply (M := 2048) (K := 66) (N := 1024) dot_S2048x66_S1024x66_S2048x1024_1_1_0_0_n_n
    rfl rfl rfl rfl rfl rfl none _ _ p q).trans ?_
  rw [Fin.sum_univ_castSucc, Fin.sum_univ_castSucc]
  refine congrArg₂ (· + ·) (congrArg₂ (· + ·) (Finset.sum_congr rfl fun c _ => congrArg₂ (· * ·) ?_ ?_) (congrArg₂ (· * ·) ?_ ?_))
    (congrArg₂ (· * ·) ?_ ?_)
  · exact LibConcatCols.concat3_cols_apply_first (a := 2048) (b₁ := 64) (b₂ := 1) (b₃ := 1) (b := 66) _ _ _ _ p c.castSucc.castSucc c rfl
  · exact LibConcatCols.concat3_cols_apply_first (a := 1024) (b₁ := 64) (b₂ := 1) (b₃ := 1) (b := 66) _ _ _ _ q c.castSucc.castSucc c rfl
  · exact (LibConcatCols.concat3_cols_apply_second (a := 2048) (b₁ := 64) (b₂ := 1) (b₃ := 1) (b := 66) _ _ _ _ p
      (Fin.last 64).castSucc (0 : Fin 1) rfl).trans (neg_sqnorm_col_apply v0 reduces_S2048x64_S2048 shapeCasts_S2048_S2048x1 p)
  · exact (LibConcatCols.concat3_cols_apply_second (a := 1024) (b₁ := 64) (b₂ := 1) (b₃ := 1) (b := 66) _ _ _ _ q
      (Fin.last 64).castSucc (0 : Fin 1) rfl).trans (one_col_apply q)
  · exact (LibConcatCols.concat3_cols_apply_third (a := 2048) (b₁ := 64) (b₂ := 1) (b₃ := 1) (b := 66) _ _ _ _ p
      (Fin.last 65) (0 : Fin 1) rfl).trans (one_col_apply p)
  · exact (LibConcatCols.concat3_cols_apply_third (a := 1024) (b₁ := 64) (b₂ := 1) (b₃ := 1) (b := 66) _ _ _ _ q
      (Fin.last 65) (0 : Fin 1) rfl).trans (neg_sqnorm_col_apply v1 reduces_S1024x64_S1024 shapeCasts_S1024_S1024x1 q)

end Cert.VqLogits

end
-- ==== Proof.KernelValue.lean ====
/-
  From the blocks to the whole array.

  Grid point `t` (of 16) stages rows `2048·t … 2048·t + 2047` of the keys, the whole code table, and writes back rows
  `2048·t … 2048·t + 2047` of the result, all 1024 columns. So entry `(p, q)` of what point `t` writes is the folded logit of
  key row `2048·t + p` against code row `q` — the block of ONE whole-array function, the folded logits — and the 16
  blocks tile the result: row `r` lies in the block of point `r / 2048`. Hence the result array ends holding the folded
  logits of the argument arrays.
-/
import proofs.«169494_g72164040507785_cont_sun_m_596_7_alg».proof.Proof.Gen.KernelIdeal.Value
import proofs.«169494_g72164040507785_cont_sun_m_596_7_alg».proof.Proof.Payload

noncomputable section

open scoped BigOperators

namespace Cert.VqLogits

open Cert.KernelIdeal Cert.KernelIdeal.Gen Idealize.ShloMosaic Idealize.ShloMosaic.TcCoe Idealize.SL.Sem
open Idealize.ShloMosaic.ValueIdx
open Idealize.ShloMosaic.Pipeline (Dat)

/-- A block's entry is the array's: if the key block `v0` is rows `row p` of the keys `x`, the code block `v1` is the code
    table `e`, and the array index `i` is `(row (y 0), y 1)`, the payload at `y` is the folded logits array at `i`. -/
theorem payload_eq_logits (x : (⟨2, ![32768, 64]⟩ : Shape).Idx → EReal) (e : (⟨2, ![1024, 64]⟩ : Shape).Idx → EReal)
    (v0 : Vec Ideal S2048x64 .f32) (v1 : Vec Ideal S1024x64 .f32) (row : Fin 2048 → Fin 32768)
    (hv0 : ∀ (p : Fin 2048) (c : Fin 64), v0 (ix2 p c) = x (ix2 (row p) c))
    (hv1 : ∀ (q : Fin 1024) (c : Fin 64), v1 (ix2 q c) = e (ix2 q c))
    (y : S2048x1024.Idx) (i : (⟨2, ![32768, 1024]⟩ : Shape).Idx) (hi0 : i 0 = row (y 0)) (hi1 : i 1 = y 1) :
    k0_pay1 (F := Ideal) v0 v1 y = logits x e i := by
  obtain ⟨p, q, rfl⟩ : ∃ (p : Fin 2048) (q : Fin 1024), y = ix2 p q := ⟨y 0, y 1, eq_ix2 y⟩
  rw [payload_apply]
  unfold logits folded
  rw [hi0, hi1]
  simp only [hv0, hv1]

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps, decided over the 16 grid points: the key window and the result window are at block row `t`,
    block column 0; the code window stays at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 16 :=
  (by decide +kernel : ∀ t : Fin grid0.N, _)

/-- WHAT POINT `t` WRITES BACK is block `t` of the folded logits of the argument arrays. -/
theorem flushed_eq (c : Dev nD) (t : Fin cfg0.N) :
    (dats m 0 c).flushed 2 t
      = ((cfg0.win 2).blk t).view.read (Elt Ideal) (logits (V m c main_arg0) (V m c main_arg1)) := by
  rw [Cert.KernelIdeal.Value.flushed2]
  unfold out0_2
  rw [View.canon_unit_zero offsets_zero]
  simp only [View.ld_unit_zero (S := S2048x64) offsets_zero, View.ld_unit_zero (S := S1024x64) offsets_zero]
  obtain ⟨a0, a1, b0, b1, o0, o1, ht⟩ := index_maps t
  funext j
  refine payload_eq_logits (V m c main_arg0) (V m c main_arg1) (iblk m c 0 t) (iblk m c 1 t)
    (fun p => ⟨t.val * 2048 + p.val, by have := p.isLt; omega⟩) ?_ ?_ j (((cfg0.win 2).blk t).view.emb j) ?_ ?_
  · intro p k
    show V m c main_arg0 (((cfg0.win 0).blk t).view.emb (ix2 p k)) = _
    refine congrArg (V m c main_arg0) (funext fun a => Fin.ext ?_)
    match a with
    | ⟨0, _⟩ => show win0_0.index t (0 : Fin 2) * 2048 + 1 * p.val = t.val * 2048 + p.val; rw [a0]; omega
    | ⟨1, _⟩ => show win0_0.index t (1 : Fin 2) * 64 + 1 * k.val = k.val; rw [a1]; omega
  · intro q k
    show V m c main_arg1 (((cfg0.win 1).blk t).view.emb (ix2 q k)) = _
    refine congrArg (V m c main_arg1) (funext fun a => Fin.ext ?_)
    match a with
    | ⟨0, _⟩ => show win0_1.index t (0 : Fin 2) * 1024 + 1 * q.val = q.val; rw [b0]; omega
    | ⟨1, _⟩ => show win0_1.index t (1 : Fin 2) * 64 + 1 * k.val = k.val; rw [b1]; omega
  · refine Fin.ext ?_
    show win0_2.index t (0 : Fin 2) * 2048 + 1 * (j 0).val = t.val * 2048 + (j 0).val
    rw [o0]; omega
  · refine Fin.ext ?_
    show win0_2.index t (1 : Fin 2) * 1024 + 1 * (j 1).val = (j 1).val
    rw [o1]; omega

/-- An index of the result array is in point `t`'s block iff each coordinate is in the block's range on its axis. -/
theorem mem_block (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The 16 blocks tile the result: row `r` is in the block of point `r / 2048`. -/
theorem blocks_cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ : ∃ t : Fin cfg0.N, t.val = (i 0).val / 2048 := ⟨⟨(i 0).val / 2048, by show _ < 16; omega⟩, rfl⟩
  obtain ⟨-, -, -, -, o0, o1, -⟩ := index_maps t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    rw [o0]; omega
  | ⟨1, _⟩ =>
    show win0_2.index t (1 : Fin 2) * 1024 ≤ (i 1).val ∧ (i 1).val < win0_2.index t (1 : Fin 2) * 1024 + 1024
    rw [o1]; omega

/-- THE RESULT ARRAY after the run is the folded logits of the argument arrays. -/
theorem final (c : Dev nD) :
    (dats m 0 c).arrAt 2 cfg0.N
      = logits (m ((c : Thread nD τ).loc main_arg0)) (m ((c : Thread nD τ).loc main_arg1)) :=
  (dats m 0 c).arrAt_eq_of_cover 2 (logits (V m c main_arg0) (V m c main_arg1)) (fun t _ => flushed_eq m c t) blocks_cover

/-- The kernel's run: the result at the folded logits of the arguments, the arguments unchanged. -/
theorem kernel_run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.VqLogits

end
-- ==== Proof.lean ====
/-
  Codebook logits of a vector quantizer: `logits[n, k] = -‖keys[n] - embeddings[k]‖²` for 32768 keys and 1024 code
  vectors of 64 channels.

  The kernel works on 16 blocks of 2048 keys with the whole code table resident. It folds the two squared norms into the
  contraction: the key rows are doubled and extended by `(-‖x‖², 1)`, the code rows by `(1, -‖e‖²)`, and ONE matrix product of
  the `[2048, 66]` block with the transposed `[1024, 66]` table gives `∑ (x + x)·e - ‖x‖² - ‖e‖²`. The reference computes
  `-((‖x‖² - 2·⟨x, e⟩) + ‖e‖²)` on whole arrays. Over the real numbers both are `2⟨x, e⟩ - ‖x‖² - ‖e‖²`; the precondition
  makes every entry a real number, which is what distributivity and the sign rules need on the extended reals.

  The kernel's result array is read off its run block by block (the payload at an entry, then the 16 blocks tile the
  array); the reference's result is read one operation at a time; the two formulas are joined by the law on real numbers.
  The frames are the generated ones; no operation was rewritten by the idealization, so `preserves` is trivial.
-/
import proofs.«169494_g72164040507785_cont_sun_m_596_7_alg».proof.Defs
import proofs.«169494_g72164040507785_cont_sun_m_596_7_alg».proof.Proof.Gen.Kernel
import proofs.«169494_g72164040507785_cont_sun_m_596_7_alg».proof.Proof.Gen.Kernel.Skeleton
import proofs.«169494_g72164040507785_cont_sun_m_596_7_alg».proof.Proof.Gen.Kernel.Launch
import proofs.«169494_g72164040507785_cont_sun_m_596_7_alg».proof.Proof.Gen.Kernel.Points
import proofs.«169494_g72164040507785_cont_sun_m_596_7_alg».proof.Proof.Gen.Kernel.Frame
import proofs.«169494_g72164040507785_cont_sun_m_596_7_alg».proof.Proof.Gen.KernelIdeal
import proofs.«169494_g72164040507785_cont_sun_m_596_7_alg».proof.Proof.Gen.KernelIdeal.Skeleton
import proofs.«169494_g72164040507785_cont_sun_m_596_7_alg».proof.Proof.Gen.KernelIdeal.Launch
import proofs.«169494_g72164040507785_cont_sun_m_596_7_alg».proof.Proof.Gen.KernelIdeal.Points
import proofs.«169494_g72164040507785_cont_sun_m_596_7_alg».proof.Proof.Gen.KernelIdeal.Frame
import proofs.«169494_g72164040507785_cont_sun_m_596_7_alg».proof.Proof.Gen.ReferenceIdeal
import proofs.«169494_g72164040507785_cont_sun_m_596_7_alg».proof.Proof.Gen.Pre_finite_inputs
import proofs.«169494_g72164040507785_cont_sun_m_596_7_alg».proof.Proof.Gen.KernelIdeal.Value
import proofs.«169494_g72164040507785_cont_sun_m_596_7_alg».proof.Proof.Gen.ReferenceIdeal.Run
import proofs.«169494_g72164040507785_cont_sun_m_596_7_alg».proof.Proof.Gen.ReferenceIdeal.Read
import proofs.«169494_g72164040507785_cont_sun_m_596_7_alg».proof.Proof.Finite
import proofs.«169494_g72164040507785_cont_sun_m_596_7_alg».proof.Proof.RefValue
import proofs.«169494_g72164040507785_cont_sun_m_596_7_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the same array: the kernel with the folded logits of its arguments, the reference with the
    expanded logits of the same arguments, and for real entries the two forms are equal. -/
theorem algebraic : Cert.algebraic_KernelIdeal_ReferenceIdeal := by
  intro m ρ m' ρ' hpre hagree
  refine ⟨fun c => Cert.VqLogits.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.VqLogits.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v14_eq, Cert.VqLogits.reference_eq]
  obtain ⟨hx, he⟩ := Cert.VqLogits.real_of_pre _ _ (hpre c)
  funext i
  exact (Cert.VqLogits.folded_eq_expanded _ _ hx he (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
